-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S64x8 : Shape := ⟨2, ![64, 8]⟩
abbrev S8 : Shape := ⟨1, ![8]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S8 .f32) (main_v13 : IVec S_ 1) (main_v16 : IVec S64x8 1) : IVec S_ 1 :=
  let main_c_5 : IVec S_ 1 := constantI S_ 1 1#1
  let main_v17 : IVec S_ 1 := (fun x v => Host.reduce IntOp.andi x v reducesTo_S64x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x64 .f32) (main_arg3 : FVec F S64 .f32) (main_arg4 : FVec F S64x8 .f32) (main_arg5 : FVec F S8 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x8 .f32 := Host.absf main_arg4
  let main_cst_4 : FVec F S_ .f32 := constant S_ .f32 0x7F800000#32
  let main_v15 : FVec F S64x8 .f32 := broadcastInDim S64x8 ![] bcast_S_S64x8 main_cst_4
  let main_v16 : IVec S64x8 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S64x8 : Shape := ⟨2, ![64, 8]⟩
abbrev S8 : Shape := ⟨1, ![8]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S4000x512 : Shape := ⟨2, ![4000, 512]⟩
abbrev S4000x64 : Shape := ⟨2, ![4000, 64]⟩
abbrev S3300000x64 : Shape := ⟨2, ![3300000, 64]⟩
abbrev S1x64 : Shape := ⟨2, ![1, 64]⟩
abbrev S100000x8 : Shape := ⟨2, ![100000, 8]⟩
abbrev S20000x64 : Shape := ⟨2, ![20000, 64]⟩
abbrev S20000x8 : Shape := ⟨2, ![20000, 8]⟩
abbrev S3300000x8 : Shape := ⟨2, ![3300000, 8]⟩
abbrev S1x8 : Shape := ⟨2, ![1, 8]⟩

abbrev nBuf : Space → Nat
  | .hbm => 89
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x64, .f32⟩
  | .hbm, ⟨3, _⟩ => ⟨S64, .f32⟩
  | .hbm, ⟨4, _⟩ => ⟨S64x8, .f32⟩
  | .hbm, ⟨5, _⟩ => ⟨S8, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x64, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x64, .f32⟩
  | .hbm, ⟨56, _⟩ => ⟨S3300000x1, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x8, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x8, .f32⟩
  | .hbm, ⟨79, _⟩ => ⟨S3300000x1, .f32⟩
  | .hbm, ⟨80, _⟩ => ⟨S3300000x8, .f32⟩
  | .hbm, ⟨81, _⟩ => ⟨S3300000x8, .f32⟩
  | .hbm, ⟨82, _⟩ => ⟨S_, .f32⟩
  | .hbm, ⟨83, _⟩ => ⟨S100000x8, .f32⟩
  | .hbm, ⟨84, _⟩ => ⟨S3300000x1, .i32⟩
  | .hbm, ⟨85, _⟩ => ⟨S100000x8, .f32⟩
  | .hbm, ⟨86, _⟩ => ⟨S1x8, .f32⟩
  | .hbm, ⟨87, _⟩ => ⟨S100000x8, .f32⟩
  | .hbm, ⟨88, _⟩ => ⟨S100000x8, .f32⟩
  | .local _ .vmem, ⟨0, _⟩ => ⟨S4000x512, .f32⟩
  | .local _ .vmem, ⟨1, _⟩ => ⟨S4000x512, .f32⟩
  | .local _ .vmem, ⟨2, _⟩ => ⟨S512x64, .f32⟩
  | .local _ .vmem, ⟨3, _⟩ => ⟨S4000x64, .f32⟩
  | .local _ .vmem, ⟨4, _⟩ => ⟨S4000x64, .f32⟩
  | .local _ .vmem, ⟨5, _⟩ => ⟨S20000x64, .f32⟩
  | .local _ .vmem, ⟨6, _⟩ => ⟨S20000x64, .f32⟩
  | .local _ .vmem, ⟨7, _⟩ => ⟨S64x8, .f32⟩
  | .local _ .vmem, ⟨8, _⟩ => ⟨S20000x8, .f32⟩
  | .local _ .vmem, ⟨9, _⟩ => ⟨S20000x8, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S20000x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S4000x64_S4000x64_0_0 : ∀ a, (![0, 0] : Fin 2 → Nat) a + S4000x64.size a ≤ S4000x64.size a
  h_S4000x64 : 0 < S4000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  inb_S64x8_S64x8_0_0 : ∀ a, (![0, 0] : Fin 2 → Nat) a + S64x8.size a ≤ S64x8.size a
  h_S64x8 : 0 < S64x8.numel
  inb_S20000x8_S20000x8_0_0 : ∀ a, (![0, 0] : Fin 2 → Nat) a + S20000x8.size a ≤ S20000x8.size a
  h_S20000x8 : 0 < S20000x8.numel
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S4000x512_S512x64_S4000x64_1_0_0_1_n_n_wf : DotDims.WF S4000x512 S512x64 S4000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S20000x64_S64x8_S20000x8_1_0_0_1_n_n_wf : DotDims.WF S20000x64 S64x8 S20000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S100000x64.size a
  hwx1_0 : ∀ i : grid1.Coords, EltTy.bits .f32 = 32 ∨ (Rect.block (s := S100000x64) S20000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x8.size a ≤ S64x8.size a
  hwx1_1 : ∀ i : grid1.Coords, EltTy.bits .f32 = 32 ∨ (Rect.block (s := S64x8) S64x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x8.size a ≤ S100000x8.size a
  hwx1_2 : ∀ i : grid1.Coords, EltTy.bits .f32 = 32 ∨ (Rect.block (s := S100000x8) S20000x8.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S4000x512_S512x64_S4000x64_1_0_0_1_n_n : DotDims S4000x512 S512x64 S4000x64 where
  lhsContracting := [1]
  rhsContracting := [0]
  lhsNonContracting := [0]
  rhsNonContracting := [1]
  lhsBatch := []
  rhsBatch := []
  wf := dot_S4000x512_S512x64_S4000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S20000x64_S64x8_S20000x8_1_0_0_1_n_n : DotDims S20000x64 S64x8 S20000x8 where
  lhsContracting := [1]
  rhsContracting := [0]
  lhsNonContracting := [0]
  rhsNonContracting := [1]
  lhsBatch := []
  rhsBatch := []
  wf := dot_S20000x64_S64x8_S20000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S20000x8.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S64x8 : Shape := ⟨2, ![64, 8]⟩
abbrev S8 : Shape := ⟨1, ![8]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x64 : Shape := ⟨2, ![100000, 64]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S100000x8 : Shape := ⟨2, ![100000, 8]⟩
abbrev S3300000x8 : Shape := ⟨2, ![3300000, 8]⟩
abbrev S1x8 : Shape := ⟨2, ![1, 8]⟩

abbrev nBuf : Space → Nat
  | .hbm => 122
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x64, .f32⟩
  | .hbm, ⟨3, _⟩ => ⟨S64, .f32⟩
  | .hbm, ⟨4, _⟩ => ⟨S64x8, .f32⟩
  | .hbm, ⟨5, _⟩ => ⟨S8, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S100000x64, .f32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x64, .f32⟩
  | .hbm, ⟨56, _⟩ => ⟨S3300000x1, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x8, .f32⟩
  | .hbm, ⟨70, _⟩ => ⟨S_, .f32⟩
  | .hbm, ⟨71, _⟩ => ⟨S3300000, .f32⟩
  | .hbm, ⟨72, _⟩ => ⟨S_, .f32⟩
  | .hbm, ⟨73, _⟩ => ⟨S100000, .f32⟩
  | .hbm, ⟨74, _⟩ => ⟨S3300000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S3300000, .i32⟩
  | .hbm, ⟨86, _⟩ => ⟨S3300000, .i1⟩
  | .hbm, ⟨87, _⟩ => ⟨S_, .i32⟩
  | .hbm, ⟨88, _⟩ => ⟨S3300000, .i32⟩
  | .hbm, ⟨89, _⟩ => ⟨S3300000, .i32⟩
  | .hbm, ⟨90, _⟩ => ⟨S3300000, .i32⟩
  | .hbm, ⟨91, _⟩ => ⟨S3300000x1, .i32⟩
  | .hbm, ⟨92, _⟩ => ⟨S3300000, .f32⟩
  | .hbm, ⟨93, _⟩ => ⟨S_, .i32⟩
  | .hbm, ⟨94, _⟩ => ⟨S3300000, .i32⟩
  | .hbm, ⟨95, _⟩ => ⟨S3300000, .i1⟩
  | .hbm, ⟨96, _⟩ => ⟨S_, .i32⟩
  | .hbm, ⟨97, _⟩ => ⟨S3300000, .i32⟩
  | .hbm, ⟨98, _⟩ => ⟨S3300000, .i32⟩
  | .hbm, ⟨99, _⟩ => ⟨S3300000, .i32⟩
  | .hbm, ⟨100, _⟩ => ⟨S3300000x1, .i32⟩
  | .hbm, ⟨101, _⟩ => ⟨S3300000, .f32⟩
  | .hbm, ⟨102, _⟩ => ⟨S3300000, .f32⟩
  | .hbm, ⟨103, _⟩ => ⟨S_, .i32⟩
  | .hbm, ⟨104, _⟩ => ⟨S3300000, .i32⟩
  | .hbm, ⟨105, _⟩ => ⟨S3300000, .i1⟩
  | .hbm, ⟨106, _⟩ => ⟨S_, .i32⟩
  | .hbm, ⟨107, _⟩ => ⟨S3300000, .i32⟩
  | .hbm, ⟨108, _⟩ => ⟨S3300000, .i32⟩
  | .hbm, ⟨109, _⟩ => ⟨S3300000, .i32⟩
  | .hbm, ⟨110, _⟩ => ⟨S3300000x1, .i32⟩
  | .hbm, ⟨111, _⟩ => ⟨S3300000x8, .f32⟩
  | .hbm, ⟨112, _⟩ => ⟨S3300000x1, .f32⟩
  | .hbm, ⟨113, _⟩ => ⟨S3300000x8, .f32⟩
  | .hbm, ⟨114, _⟩ => ⟨S3300000x8, .f32⟩
  | .hbm, ⟨115, _⟩ => ⟨S_, .f32⟩
  | .hbm, ⟨116, _⟩ => ⟨S100000x8, .f32⟩
  | .hbm, ⟨117, _⟩ => ⟨S3300000x1, .i32⟩
  | .hbm, ⟨118, _⟩ => ⟨S100000x8, .f32⟩
  | .hbm, ⟨119, _⟩ => ⟨S1x8, .f32⟩
  | .hbm, ⟨120, _⟩ => ⟨S100000x8, .f32⟩
  | .hbm, ⟨121, _⟩ => ⟨S100000x8, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  dot_S100000x512_S512x64_S100000x64_1_0_0_1_n_n_wf : DotDims.WF S100000x512 S512x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x8_S100000x8_1_0_0_1_n_n_wf : DotDims.WF S100000x64 S64x8 S100000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1

variable [Facts₀]

def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x8_S100000x8_1_0_0_1_n_n : DotDims S100000x64 S64x8 S100000x8 where
  lhsContracting := [1]
  rhsContracting := [0]
  lhsNonContracting := [0]
  rhsNonContracting := [1]
  lhsBatch := []
  rhsBatch := []
  wf := dot_S100000x64_S64x8_S100000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf

class Facts : Prop extends Facts₀ where

variable [Facts]
-- ==== Proof.Spec.lean ====
/-
  The mathematics both programs compute, written once.

  A two-layer graph convolution over 100000 nodes. The edge list `e` (two rows of 3200000 node numbers: sources and
  destinations) is extended by one self-loop per node, giving 3300000 (source, destination) pairs. With
  deg(v) the number of pairs whose destination is v and dinv = deg^(-1/2) where deg > 0 (else 0), every pair
  (s, d) carries the weight dinv(s) · dinv(d). A layer maps node features h to
    out(v, j) = (∑ over pairs (s, d) with d = v of h(s, j) · weight(s, d)) + b(j),
  and the whole program is  layer₈ (relu (layer₆₄ (x · W1)) · W2).
  The sums over pairs, the gathers and the reciprocal square root are the host's own operations, which both
  programs apply to the same operands; only the two matrix products are computed differently (row blocks of a
  tiled kernel against one whole product), and over the extended reals both are the sum over k of
  l(a, k) · r(k, b) (`mm`).
-/
import proofs.«117894_j39427799777294_1_alg».proof.KernelIdeal
import Idealize.ShloMosaic.PureOps.Ideal.Laws
import Idealize.ShloMosaic.Lib.ValueIdx

noncomputable section

namespace Cert.KernelIdeal.Spec

open Idealize.ShloMosaic Idealize.ShloMosaic.ValueIdx Cert.KernelIdeal
open Cert.KernelIdeal.Facts₀ Cert.KernelIdeal.Facts

/-- The product of an M × K matrix with a K × N matrix over the extended reals: entry (a, b) is the sum over k of
    x(a, k) · w(k, b). -/
def mm {M K N : Nat} (x : FVec Ideal ⟨2, ![M, K]⟩ .f32) (w : FVec Ideal ⟨2, ![K, N]⟩ .f32) : FVec Ideal ⟨2, ![M, N]⟩ .f32 :=
  fun i => ∑ k : Fin K, x (ix2 (i 0) k) * w (ix2 k (i 1))

theorem mm_apply {M K N : Nat} (x : FVec Ideal ⟨2, ![M, K]⟩ .f32) (w : FVec Ideal ⟨2, ![K, N]⟩ .f32) (a : Fin M) (b : Fin N) :
    mm x w (ix2 a b) = ∑ k : Fin K, x (ix2 a k) * w (ix2 k b) := rfl

variable {F : FTy → Type} [FloatOps F] [Facts]

/-- The sources of the 3300000 pairs: row 0 of the edge list, then every node once. -/
def srcOf (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The destinations of the 3300000 pairs: row 1 of the edge list, then every node once. -/
def dstOf (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- Node numbers as gather indices: a negative number counts from the end (100000 is added to it). -/
def wrapIdx (v : (⟨S3300000, .i32⟩ : BufTy).Contents (Elt F)) : (⟨S3300000x1, .i32⟩ : BufTy).Contents (Elt F) :=
  broadcastInDim S3300000x1 ![0] bcast_S3300000_S3300000x1_0
    (select (cmpi .slt v (broadcastInDim S3300000 ![] bcast_S_S3300000 (constantI S_ 32 0#32)))
      (addi v (broadcastInDim S3300000 ![] bcast_S_S3300000 (constantI S_ 32 100000#32))) v)

/-- deg(v): the number of pairs whose destination is v, as a sum of ones. -/
def degOf (d : (⟨S3300000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant S_ .f32 0x00000000#32))
    (broadcastInDim S3300000x1 ![0] bcast_S3300000_S3300000x1_0 d)
    (broadcastInDim S3300000 ![] bcast_S_S3300000 (constant S_ .f32 0x3F800000#32))

/-- dinv(v) = deg(v)^(-1/2) where deg(v) > 0, and 0 elsewhere. -/
def dinvOf (d : (⟨S3300000, .i32⟩ : BufTy).Contents (Elt F)) : (⟨S100000, .f32⟩ : BufTy).Contents (Elt F) :=
  select (cmpf .ogt (degOf d) (broadcastInDim S100000 ![] bcast_S_S100000 (constant S_ .f32 0x00000000#32)))
    (Host.rsqrt (degOf d))
    (broadcastInDim S100000 ![] bcast_S_S100000 (id (constant S_ .f32 0x00000000#32)))

/-- The weight of every pair (s, d): dinv(s) · dinv(d). -/
def normOf (s d : (⟨S3300000, .i32⟩ : BufTy).Contents (Elt F)) : (⟨S3300000, .f32⟩ : BufTy).Contents (Elt F) :=
  mulf (Host.gather gather_S100000_S3300000x1_S3300000_n_0_n_n_0_1_1 (dinvOf d) (wrapIdx s))
    (Host.gather gather_S100000_S3300000x1_S3300000_n_0_n_n_0_1_1 (dinvOf d) (wrapIdx d))

/-- The first layer after its matrix product: rows of `h` gathered at the sources, weighted, summed into the
    destinations, the bias added, negative entries replaced by 0. -/
def layer64 (h : (⟨S100000x64, .f32⟩ : BufTy).Contents (Elt F)) (s d : (⟨S3300000, .i32⟩ : BufTy).Contents (Elt F))
    (w : (⟨S3300000, .f32⟩ : BufTy).Contents (Elt F)) (b : (⟨S64, .f32⟩ : BufTy).Contents (Elt F)) :
    (⟨S100000x64, .f32⟩ : BufTy).Contents (Elt F) :=
  maximumf
    (addf
      (Host.scatterAdd scatter_S100000x64_S3300000x1_S3300000x64_1_0_0_1
        (broadcastInDim S100000x64 ![] bcast_S_S100000x64 (constant S_ .f32 0x00000000#32))
        (broadcastInDim S3300000x1 ![0] bcast_S3300000_S3300000x1_0 d)
        (mulf (Host.gather gather_S100000x64_S3300000x1_S3300000x64_1_0_n_n_0_1_164 h (wrapIdx s))
          (broadcastInDim S3300000x64 ![0, 1] bcast_S3300000x1_S3300000x64_0_1 (broadcastInDim S3300000x1 ![0] bcast_S3300000_S3300000x1_0 w))))
      (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- The second layer after its matrix product: the same gather, weighting and sum over pairs, and the bias. -/
def layer8 (h : (⟨S100000x8, .f32⟩ : BufTy).Contents (Elt F)) (s d : (⟨S3300000, .i32⟩ : BufTy).Contents (Elt F))
    (w : (⟨S3300000, .f32⟩ : BufTy).Contents (Elt F)) (b : (⟨S8, .f32⟩ : BufTy).Contents (Elt F)) :
    (⟨S100000x8, .f32⟩ : BufTy).Contents (Elt F) :=
  addf
    (Host.scatterAdd scatter_S100000x8_S3300000x1_S3300000x8_1_0_0_1
      (broadcastInDim S100000x8 ![] bcast_S_S100000x8 (constant S_ .f32 0x00000000#32))
      (broadcastInDim S3300000x1 ![0] bcast_S3300000_S3300000x1_0 d)
      (mulf (Host.gather gather_S100000x8_S3300000x1_S3300000x8_1_0_n_n_0_1_18 h (wrapIdx s))
        (broadcastInDim S3300000x8 ![0, 1] bcast_S3300000x1_S3300000x8_0_1 (broadcastInDim S3300000x1 ![0] bcast_S3300000_S3300000x1_0 w))))
    (broadcastInDim S100000x8 ![0, 1] bcast_S1x8_S100000x8_0_1 (broadcastInDim S1x8 ![1] bcast_S8_S1x8_1 b))

/-- The whole program over the extended reals, as a function of its six arguments. -/
def out (x : (⟨S100000x512, .f32⟩ : BufTy).Contents (Elt Ideal)) (e : (⟨S2x3200000, .i32⟩ : BufTy).Contents (Elt Ideal))
    (W1 : (⟨S512x64, .f32⟩ : BufTy).Contents (Elt Ideal)) (b1 : (⟨S64, .f32⟩ : BufTy).Contents (Elt Ideal))
    (W2 : (⟨S64x8, .f32⟩ : BufTy).Contents (Elt Ideal)) (b2 : (⟨S8, .f32⟩ : BufTy).Contents (Elt Ideal)) :
    (⟨S100000x8, .f32⟩ : BufTy).Contents (Elt Ideal) :=
  layer8 (mm (layer64 (mm x W1) (srcOf e) (dstOf e) (normOf (srcOf e) (dstOf e)) b1) W2)
    (srcOf e) (dstOf e) (normOf (srcOf e) (dstOf e)) b2

end Cert.KernelIdeal.Spec

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.Products.lean ====
/-
  What each kernel region leaves in its output array: the matrix product of its two input arrays.

  Region 0 walks the 100000 rows of its first array in 25 blocks of 4000 rows; at a grid point its body loads the
  block of rows and the whole second array, multiplies them into a zero accumulator (the roundings to a shorter float
  format before the product are the identity over the extended reals) and stores the 4000 × 64 result, which the
  pipeline writes back as the same rows of the output array. Entry (a, b) of a block's product is the sum over k of
  the block's (a, k) entry times the second array's (k, b) entry, and the block's row a is the array's row
  4000 · t + a, so the write-back of point t is block t of the whole product; the 25 blocks cover the array.
  Region 1 is the same with 5 blocks of 20000 rows, inner extent 64 and 8 columns.
-/
import proofs.«117894_j39427799777294_1_alg».proof.Proof.Gen.KernelIdeal.Frame
import proofs.«117894_j39427799777294_1_alg».proof.Proof.Spec
import proofs.«117894_j39427799777294_1_alg».proof.Proof.LibPlainDot
import Idealize.ShloMosaic.Lib.Pipeline.Value
import Idealize.ShloMosaic.PureOps.Ideal.Laws
import Idealize.ShloMosaic.Lib.ValueIdx

set_option maxRecDepth 16384

noncomputable section

namespace Cert.KernelIdeal.Products

open Idealize.ShloMosaic Idealize.ShloMosaic.TcCoe Idealize.ShloMosaic.ValueIdx Cert.KernelIdeal Cert.KernelIdeal.Gen
open Idealize.ShloMosaic.Pipeline (Dat)
open Idealize.SL.Sem
open Cert.KernelIdeal.Spec (mm)

/- The buffer contents when a region is entered: a parameter, as in the regions' proof data. -/
variable (V : (c : Dev nD) → (b : Ref sig .tc) → Buf (Elt Ideal) ((c : Thread nD τ).loc b))

theorem hz : (![0, 0] : Fin 2 → Nat) = fun _ => 0 := funext fun a => by fin_cases a <;> rfl

/-! ## Region 0: 25 blocks of 4000 rows -/

/-- Region 0's two input arrays, at their literal types. -/
abbrev xarr0 (c : Dev nD) : FVec Ideal S100000x512 .f32 := V c main_arg0
abbrev warr0 (c : Dev nD) : FVec Ideal S512x64 .f32 := V c main_arg2

/-- The index maps over the grid: the first input's and the output's blocks move together down the rows, one block per
    point; every other block index is 0. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- The body's one store holds the product of the two loaded blocks. -/
theorem pay0_apply (x0 : Vec Ideal S4000x512 .f32) (x1 : Vec Ideal S512x64 .f32) (a : Fin 4000) (b : Fin 64) :
    k0_pay1 (F := Ideal) x0 x1 (ix2 a b) = ∑ k : Fin 512, x0 (ix2 a k) * x1 (ix2 k b) :=
  LibPlainDot.matmul_zero_apply dot_S4000x512_S512x64_S4000x64_1_0_0_1_n_n rfl rfl rfl rfl rfl rfl none x0 x1 a b

/-- What point `t` writes back is block `t` of the whole product. -/
theorem flushed0 (c : Dev nD) (t : Fin cfg0.N) :
    (dat0 (F := Ideal) V c).flushed 2 t = ((cfg0.win 2).blk t).view.read (Elt Ideal) (mm (xarr0 V c) (warr0 V c)) := by
  show (cfg0.win 2).cut (grid0.coords t) ((dat0 V c).after 2 t) = _
  rw [after0_2]
  unfold out0_2
  rw [View.canon_unit_zero hz]
  simp only [View.ld_unit_zero (S := S4000x512) hz, View.ld_unit_zero (S := S512x64) hz]
  obtain ⟨e0, e1, e2, e3, e4, e5⟩ := idx_facts0 t
  funext j
  obtain ⟨a, b, rfl⟩ : ∃ (a : Fin 4000) (b : Fin 64), j = ix2 a b := ⟨j 0, j 1, eq_ix2 j⟩
  show k0_pay1 (iblk0 V c 0 t) (iblk0 V c 1 t) (ix2 a b) = mm (xarr0 V c) (warr0 V c) (((cfg0.win 2).blk t).view.emb (ix2 a b))
  refine (pay0_apply (iblk0 V c 0 t) (iblk0 V c 1 t) a b).trans ?_
  refine Finset.sum_congr rfl fun k _ => ?_
  show xarr0 V c (((cfg0.win 0).blk t).view.emb (ix2 a k)) * warr0 V c (((cfg0.win 1).blk t).view.emb (ix2 k b))
    = xarr0 V c (ix2 ((((cfg0.win 2).blk t).view.emb (ix2 a b)) 0) k) * warr0 V c (ix2 k ((((cfg0.win 2).blk t).view.emb (ix2 a b)) 1))
  have h0 : ((cfg0.win 0).blk t).view.emb (ix2 a k) = ix2 ((((cfg0.win 2).blk t).view.emb (ix2 a b)) 0) k := by
    funext ax; apply Fin.ext
    match ax with
    | ⟨0, _⟩ => show win0_0.index t (0 : Fin 2) * 4000 + 1 * a.val = win0_2.index t (0 : Fin 2) * 4000 + 1 * a.val; omega
    | ⟨1, _⟩ => show win0_0.index t (1 : Fin 2) * 512 + 1 * k.val = k.val; omega
  have h1 : ((cfg0.win 1).blk t).view.emb (ix2 k b) = ix2 k ((((cfg0.win 2).blk t).view.emb (ix2 a b)) 1) := by
    funext ax; apply Fin.ext
    match ax with
    | ⟨0, _⟩ => show win0_1.index t (0 : Fin 2) * 512 + 1 * k.val = k.val; omega
    | ⟨1, _⟩ => show win0_1.index t (1 : Fin 2) * 64 + 1 * b.val = win0_2.index t (1 : Fin 2) * 64 + 1 * b.val; omega
  rw [h0, h1]
  rfl

/-- An index of the output array is in point `t`'s block iff each coordinate is in the block's range on its axis. -/
theorem mem_blk0 (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v30).slice (win0_2.rect t)).set ↔ _
  rw [View.set_slice_whole, Rect.mem_set_unit]
  exact Iff.rfl

/-- Row r of the output array lies in the block of point r / 4000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have ht : (i 0).val / 4000 < cfg0.N := by show _ < grid0.N; rw [N_0]; omega
  obtain ⟨e0, e1, e2, e3, e4, e5⟩ := idx_facts0 ⟨(i 0).val / 4000, ht⟩
  refine ⟨⟨(i 0).val / 4000, ht⟩, flush0_2 _, ?_⟩
  rw [mem_blk0]
  intro a
  match a with
  | ⟨0, _⟩ =>
    show win0_2.index ⟨(i 0).val / 4000, ht⟩ (0 : Fin 2) * 4000 ≤ (i 0).val ∧ (i 0).val < win0_2.index ⟨(i 0).val / 4000, ht⟩ (0 : Fin 2) * 4000 + 4000
    have e5' : win0_2.index ⟨(i 0).val / 4000, ht⟩ (0 : Fin 2) = (i 0).val / 4000 := e5
    omega
  | ⟨1, _⟩ =>
    show win0_2.index ⟨(i 0).val / 4000, ht⟩ (1 : Fin 2) * 64 ≤ (i 1).val ∧ (i 1).val < win0_2.index ⟨(i 0).val / 4000, ht⟩ (1 : Fin 2) * 64 + 64
    omega

/-- REGION 0's OUTPUT ARRAY after the region is the matrix product of its two input arrays as the region finds them. -/
theorem prod0 (c : Dev nD) : (dat0 (F := Ideal) V c).arrAt 2 cfg0.N = mm (xarr0 V c) (warr0 V c) :=
  (dat0 V c).arrAt_eq_of_cover 2 _ (fun t _ => flushed0 V c t) (cover0)

/-! ## Region 1: 5 blocks of 20000 rows -/

/-- Region 1's two input arrays, at their literal types. -/
abbrev xarr1 (c : Dev nD) : FVec Ideal S100000x64 .f32 := V c main_v47
abbrev warr1 (c : Dev nD) : FVec Ideal S64x8 .f32 := V c main_arg4

/-- The index maps over the grid, as for region 0. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

/-- The body's one store holds the product of the two loaded blocks (its cast of the first block to its own shape
    changes nothing). -/
theorem pay1_apply (x0 : Vec Ideal S20000x64 .f32) (x1 : Vec Ideal S64x8 .f32) (a : Fin 20000) (b : Fin 8) :
    k1_pay1 (F := Ideal) x0 x1 (ix2 a b) = ∑ k : Fin 64, x0 (ix2 a k) * x1 (ix2 k b) := by
  unfold k1_pay1
  rw [shapeCast_self]
  exact LibPlainDot.matmul_zero_apply dot_S20000x64_S64x8_S20000x8_1_0_0_1_n_n rfl rfl rfl rfl rfl rfl none x0 x1 a b

/-- What point `t` writes back is block `t` of the whole product. -/
theorem flushed1 (c : Dev nD) (t : Fin cfg1.N) :
    (dat1 (F := Ideal) V c).flushed 2 t = ((cfg1.win 2).blk t).view.read (Elt Ideal) (mm (xarr1 V c) (warr1 V c)) := by
  show (cfg1.win 2).cut (grid1.coords t) ((dat1 V c).after 2 t) = _
  rw [after1_2]
  unfold out1_2
  rw [View.canon_unit_zero hz]
  simp only [View.ld_unit_zero (S := S20000x64) hz, View.ld_unit_zero (S := S64x8) hz]
  obtain ⟨e0, e1, e2, e3, e4, e5⟩ := idx_facts1 t
  funext j
  obtain ⟨a, b, rfl⟩ : ∃ (a : Fin 20000) (b : Fin 8), j = ix2 a b := ⟨j 0, j 1, eq_ix2 j⟩
  show k1_pay1 (iblk1 V c 0 t) (iblk1 V c 1 t) (ix2 a b) = mm (xarr1 V c) (warr1 V c) (((cfg1.win 2).blk t).view.emb (ix2 a b))
  refine (pay1_apply (iblk1 V c 0 t) (iblk1 V c 1 t) a b).trans ?_
  refine Finset.sum_congr rfl fun k _ => ?_
  show xarr1 V c (((cfg1.win 0).blk t).view.emb (ix2 a k)) * warr1 V c (((cfg1.win 1).blk t).view.emb (ix2 k b))
    = xarr1 V c (ix2 ((((cfg1.win 2).blk t).view.emb (ix2 a b)) 0) k) * warr1 V c (ix2 k ((((cfg1.win 2).blk t).view.emb (ix2 a b)) 1))
  have h0 : ((cfg1.win 0).blk t).view.emb (ix2 a k) = ix2 ((((cfg1.win 2).blk t).view.emb (ix2 a b)) 0) k := by
    funext ax; apply Fin.ext
    match ax with
    | ⟨0, _⟩ => show win1_0.index t (0 : Fin 2) * 20000 + 1 * a.val = win1_2.index t (0 : Fin 2) * 20000 + 1 * a.val; omega
    | ⟨1, _⟩ => show win1_0.index t (1 : Fin 2) * 64 + 1 * k.val = k.val; omega
  have h1 : ((cfg1.win 1).blk t).view.emb (ix2 k b) = ix2 k ((((cfg1.win 2).blk t).view.emb (ix2 a b)) 1) := by
    funext ax; apply Fin.ext
    match ax with
    | ⟨0, _⟩ => show win1_1.index t (0 : Fin 2) * 64 + 1 * k.val = k.val; omega
    | ⟨1, _⟩ => show win1_1.index t (1 : Fin 2) * 8 + 1 * b.val = win1_2.index t (1 : Fin 2) * 8 + 1 * b.val; omega
  rw [h0, h1]
  rfl

/-- An index of the output array is in point `t`'s block iff each coordinate is in the block's range on its axis. -/
theorem mem_blk1 (t : Fin cfg1.N) (i : S100000x8.Idx) :
    i ∈ ((cfg1.win 2).blk t).view.set ↔ ∀ a : Fin 2, win1_2.index t a * S20000x8.size a ≤ (i a).val ∧ (i a).val < win1_2.index t a * S20000x8.size a + S20000x8.size a := by
  show i ∈ ((View.whole main_v48).slice (win1_2.rect t)).set ↔ _
  rw [View.set_slice_whole, Rect.mem_set_unit]
  exact Iff.rfl

/-- Row r of the output array lies in the block of point r / 20000. -/
theorem cover1 (i : S100000x8.Idx) : ∃ t : Fin cfg1.N, (cfg1.win 2).flush t = true ∧ i ∈ ((cfg1.win 2).blk t).view.set := by
  have hi0 : (i 0).val < 100000 := (i 0).isLt
  have hi1 : (i 1).val < 8 := (i 1).isLt
  have ht : (i 0).val / 20000 < cfg1.N := by show _ < grid1.N; rw [N_1]; omega
  obtain ⟨e0, e1, e2, e3, e4, e5⟩ := idx_facts1 ⟨(i 0).val / 20000, ht⟩
  refine ⟨⟨(i 0).val / 20000, ht⟩, flush1_2 _, ?_⟩
  rw [mem_blk1]
  intro a
  match a with
  | ⟨0, _⟩ =>
    show win1_2.index ⟨(i 0).val / 20000, ht⟩ (0 : Fin 2) * 20000 ≤ (i 0).val ∧ (i 0).val < win1_2.index ⟨(i 0).val / 20000, ht⟩ (0 : Fin 2) * 20000 + 20000
    have e5' : win1_2.index ⟨(i 0).val / 20000, ht⟩ (0 : Fin 2) = (i 0).val / 20000 := e5
    omega
  | ⟨1, _⟩ =>
    show win1_2.index ⟨(i 0).val / 20000, ht⟩ (1 : Fin 2) * 8 ≤ (i 1).val ∧ (i 1).val < win1_2.index ⟨(i 0).val / 20000, ht⟩ (1 : Fin 2) * 8 + 8
    omega

/-- REGION 1's OUTPUT ARRAY after the region is the matrix product of its two input arrays as the region finds them. -/
theorem prod1 (c : Dev nD) : (dat1 (F := Ideal) V c).arrAt 2 cfg1.N = mm (xarr1 V c) (warr1 V c) :=
  (dat1 V c).arrAt_eq_of_cover 2 _ (fun t _ => flushed1 V c t) (cover1)

end Cert.KernelIdeal.Products

end
-- ==== Proof.Entry.lean ====
/-
  What the first kernel region finds: the pair lists and their weights, computed from the edge list by the host
  operations before it, and the argument arrays, which none of those operations writes.
-/
import proofs.«117894_j39427799777294_1_alg».proof.Proof.Gen.KernelIdeal.Frame
import proofs.«117894_j39427799777294_1_alg».proof.Proof.Spec

set_option maxRecDepth 16384

noncomputable section

namespace Cert.KernelIdeal.Fold

open Idealize.ShloMosaic Idealize.ShloMosaic.TcCoe Idealize.ShloMosaic.StableHlo Idealize.SL.Sem
open Cert.KernelIdeal Cert.KernelIdeal.Gen Cert.KernelIdeal.Spec

/-- Reads a buffer back through a line of host operations: one simplifier pass over the line, then, by rewriting, the
    operands of a concatenation, which that pass does not enter. -/
macro "read_back" : tactic =>
  `(tactic| (after_results_simp
             repeat (first
               | rw [nullary_result] | rw [unary_result] | rw [binary_result] | rw [reshape_result]
               | (rw [nullary_result_ne]; rotate_left; decide)
               | (rw [unary_result_ne]; rotate_left; decide)
               | (rw [binary_result_ne]; rotate_left; decide)
               | (rw [reshape_result_ne]; rotate_left; decide))))

variable {F : FTy → Type} [FloatOps F]
variable (m : (ℓ : Loc nD τ sig) → Buf (Elt F) ℓ) (ρ : Dev nD → PrngReg) (c : Dev nD)

set_option maxHeartbeats 4000000 in
/-- The sources of the pairs. -/
theorem W3_src : W3 m ρ c (Proc.devRef .tc main_v3) = srcOf (m ((c : Thread nD τ).loc main_arg1)) := by
  show after hostOps0_2 (after hostOps0_1 (after hostOps0 (W0 m ρ c))) (Proc.devRef .tc main_v3) = _
  read_back
  rfl

set_option maxHeartbeats 4000000 in
/-- The destinations of the pairs. -/
theorem W3_dst : W3 m ρ c (Proc.devRef .tc main_v6) = dstOf (m ((c : Thread nD τ).loc main_arg1)) := by
  show after hostOps0_2 (after hostOps0_1 (after hostOps0 (W0 m ρ c))) (Proc.devRef .tc main_v6) = _
  read_back
  rfl

set_option maxHeartbeats 8000000 in
/-- The weights of the pairs. -/
theorem W3_norm : W3 m ρ c (Proc.devRef .tc main_v29)
    = normOf (srcOf (m ((c : Thread nD τ).loc main_arg1))) (dstOf (m ((c : Thread nD τ).loc main_arg1))) := by
  show after hostOps0_2 (after hostOps0_1 (after hostOps0 (W0 m ρ c))) (Proc.devRef .tc main_v29) = _
  read_back
  rfl

theorem W3_arg0 : W3 m ρ c (Proc.devRef .tc main_arg0) = m ((c : Thread nD τ).loc main_arg0) := by
  show after hostOps0_2 (after hostOps0_1 (after hostOps0 (W0 m ρ c))) (Proc.devRef .tc main_arg0) = _
  after_results_simp <;> rfl
theorem W3_arg2 : W3 m ρ c (Proc.devRef .tc main_arg2) = m ((c : Thread nD τ).loc main_arg2) := by
  show after hostOps0_2 (after hostOps0_1 (after hostOps0 (W0 m ρ c))) (Proc.devRef .tc main_arg2) = _
  after_results_simp <;> rfl
theorem W3_arg3 : W3 m ρ c (Proc.devRef .tc main_arg3) = m ((c : Thread nD τ).loc main_arg3) := by
  show after hostOps0_2 (after hostOps0_1 (after hostOps0 (W0 m ρ c))) (Proc.devRef .tc main_arg3) = _
  after_results_simp <;> rfl
theorem W3_arg4 : W3 m ρ c (Proc.devRef .tc main_arg4) = m ((c : Thread nD τ).loc main_arg4) := by
  show after hostOps0_2 (after hostOps0_1 (after hostOps0 (W0 m ρ c))) (Proc.devRef .tc main_arg4) = _
  after_results_simp <;> rfl
theorem W3_arg5 : W3 m ρ c (Proc.devRef .tc main_arg5) = m ((c : Thread nD τ).loc main_arg5) := by
  show after hostOps0_2 (after hostOps0_1 (after hostOps0 (W0 m ρ c))) (Proc.devRef .tc main_arg5) = _
  after_results_simp <;> rfl

end Cert.KernelIdeal.Fold

end
-- ==== Proof.KernelValue.lean ====
/-
  The kernel program's result, read through its run.

  The run's buffer contents at each boundary are a fold from the launch memory: a host stretch applies its
  operations, a kernel region replaces its output array by what its write-backs leave and keeps every other buffer.
  Read back through that fold, the result array is the specification's function of the six arguments: the pair lists
  and their weights are computed once, before the first region; each region's output array is the matrix product of
  its two input arrays; the stretch after a region is one layer's gather, weighting, sum over pairs and bias.
-/
import proofs.«117894_j39427799777294_1_alg».proof.Proof.Gen.KernelIdeal.Frame
import proofs.«117894_j39427799777294_1_alg».proof.Proof.Spec
import proofs.«117894_j39427799777294_1_alg».proof.Proof.Products
import proofs.«117894_j39427799777294_1_alg».proof.Proof.Entry

set_option maxRecDepth 16384

noncomputable section

namespace Cert.KernelIdeal.Fold

open Idealize.ShloMosaic Idealize.ShloMosaic.TcCoe Idealize.ShloMosaic.StableHlo Idealize.SL.Sem
open Cert.KernelIdeal Cert.KernelIdeal.Gen Cert.KernelIdeal.Spec

section AnyF

variable {F : FTy → Type} [FloatOps F]
variable (m : (ℓ : Loc nD τ sig) → Buf (Elt F) ℓ) (ρ : Dev nD → PrngReg) (c : Dev nD)

/-! ## Across region 0: every buffer that is none of its arrays is kept -/

theorem W4_src : W4 m ρ c (Proc.devRef .tc main_v3) = srcOf (m ((c : Thread nD τ).loc main_arg1)) :=
  (W4_of_ne m ρ c main_v3 (by decide)).trans (W3_src m ρ c)
theorem W4_dst : W4 m ρ c (Proc.devRef .tc main_v6) = dstOf (m ((c : Thread nD τ).loc main_arg1)) :=
  (W4_of_ne m ρ c main_v6 (by decide)).trans (W3_dst m ρ c)
theorem W4_norm : W4 m ρ c (Proc.devRef .tc main_v29)
    = normOf (srcOf (m ((c : Thread nD τ).loc main_arg1))) (dstOf (m ((c : Thread nD τ).loc main_arg1))) :=
  (W4_of_ne m ρ c main_v29 (by decide)).trans (W3_norm m ρ c)
theorem W4_arg3 : W4 m ρ c (Proc.devRef .tc main_arg3) = m ((c : Thread nD τ).loc main_arg3) :=
  (W4_of_ne m ρ c main_arg3 (by decide)).trans (W3_arg3 m ρ c)
theorem W4_arg4 : W4 m ρ c (Proc.devRef .tc main_arg4) = m ((c : Thread nD τ).loc main_arg4) :=
  (W4_of_ne m ρ c main_arg4 (by decide)).trans (W3_arg4 m ρ c)
theorem W4_arg5 : W4 m ρ c (Proc.devRef .tc main_arg5) = m ((c : Thread nD τ).loc main_arg5) :=
  (W4_of_ne m ρ c main_arg5 (by decide)).trans (W3_arg5 m ρ c)

/-! ## The stretch between the regions: the first layer, and what it keeps -/

theorem W6_layer : W6 m ρ c (Proc.devRef .tc main_v47)
    = layer64 (W4 m ρ c (Proc.devRef .tc main_v30)) (W4 m ρ c (Proc.devRef .tc main_v3)) (W4 m ρ c (Proc.devRef .tc main_v6))
        (W4 m ρ c (Proc.devRef .tc main_v29)) (W4 m ρ c (Proc.devRef .tc main_arg3)) := by
  show after hostOps1_1 (after hostOps1 (W4 m ρ c)) (Proc.devRef .tc main_v47) = _
  after_results_simp
  rfl

theorem W6_v3 : W6 m ρ c (Proc.devRef .tc main_v3) = W4 m ρ c (Proc.devRef .tc main_v3) := by
  show after hostOps1_1 (after hostOps1 (W4 m ρ c)) (Proc.devRef .tc main_v3) = _
  after_results_simp
theorem W6_v6 : W6 m ρ c (Proc.devRef .tc main_v6) = W4 m ρ c (Proc.devRef .tc main_v6) := by
  show after hostOps1_1 (after hostOps1 (W4 m ρ c)) (Proc.devRef .tc main_v6) = _
  after_results_simp
theorem W6_v29 : W6 m ρ c (Proc.devRef .tc main_v29) = W4 m ρ c (Proc.devRef .tc main_v29) := by
  show after hostOps1_1 (after hostOps1 (W4 m ρ c)) (Proc.devRef .tc main_v29) = _
  after_results_simp
theorem W6_arg4 : W6 m ρ c (Proc.devRef .tc main_arg4) = W4 m ρ c (Proc.devRef .tc main_arg4) := by
  show after hostOps1_1 (after hostOps1 (W4 m ρ c)) (Proc.devRef .tc main_arg4) = _
  after_results_simp
theorem W6_arg5 : W6 m ρ c (Proc.devRef .tc main_arg5) = W4 m ρ c (Proc.devRef .tc main_arg5) := by
  show after hostOps1_1 (after hostOps1 (W4 m ρ c)) (Proc.devRef .tc main_arg5) = _
  after_results_simp

/-! ## The last stretch: the second layer -/

theorem W8_layer : W8 m ρ c (Proc.devRef .tc main_v64)
    = layer8 (W7 m ρ c (Proc.devRef .tc main_v48)) (W7 m ρ c (Proc.devRef .tc main_v3)) (W7 m ρ c (Proc.devRef .tc main_v6))
        (W7 m ρ c (Proc.devRef .tc main_v29)) (W7 m ρ c (Proc.devRef .tc main_arg5)) := by
  show after hostOps2 (W7 m ρ c) (Proc.devRef .tc main_v64) = _
  after_results_simp
  rfl

end AnyF

/-! ## Over the extended reals -/

variable (m : (ℓ : Loc nD τ sig) → Buf (Elt Ideal) ℓ) (ρ : Dev nD → PrngReg) (c : Dev nD)

/-- Region 0 leaves the first product. -/
theorem W4_prod : W4 m ρ c (Proc.devRef .tc main_v30)
    = mm (m ((c : Thread nD τ).loc main_arg0)) (m ((c : Thread nD τ).loc main_arg2)) := by
  refine (W4_arr m ρ c 2).trans ?_
  rw [Products.prod0]
  show mm (W3 m ρ c (Proc.devRef .tc main_arg0)) (W3 m ρ c (Proc.devRef .tc main_arg2)) = _
  rw [W3_arg0, W3_arg2]

/-- Region 1 leaves the second product, of the first layer's result. -/
theorem W7_prod : W7 m ρ c (Proc.devRef .tc main_v48)
    = mm (W6 m ρ c (Proc.devRef .tc main_v47)) (W6 m ρ c (Proc.devRef .tc main_arg4)) := by
  refine (W7_arr m ρ c 2).trans ?_
  rw [Products.prod1]

/-- THE RESULT: the kernel program's result array ends at the specification of its arguments. -/
theorem result_eq : W8 m ρ c (Proc.devRef .tc main_v64)
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [W8_layer, W7_prod, W6_layer, W4_prod,
    W7_of_ne m ρ c main_v3 (by decide), W7_of_ne m ρ c main_v6 (by decide), W7_of_ne m ρ c main_v29 (by decide),
    W7_of_ne m ρ c main_arg5 (by decide),
    W6_v3, W6_v6, W6_v29, W6_arg4, W6_arg5, W4_src, W4_dst, W4_norm, W4_arg3, W4_arg4, W4_arg5]
  rfl

end Cert.KernelIdeal.Fold

end
-- ==== Proof.RefValue.lean ====
/-
  The reference's result is the specification's function of its arguments.

  The reference applies the same host operations as the kernel program — the pair lists, their weights (computed
  anew for each layer, from the same edge list, so to the same value), each layer's gather, weighting, sum over pairs
  and bias — around two whole matrix products; over the extended reals a whole product is, entry by entry, the sum
  over k of l(a, k) · r(k, b).
-/
import proofs.«117894_j39427799777294_1_alg».proof.Proof.RefRun
import proofs.«117894_j39427799777294_1_alg».proof.Proof.Gen.KernelIdeal
import proofs.«117894_j39427799777294_1_alg».proof.Proof.Spec
import proofs.«117894_j39427799777294_1_alg».proof.Proof.LibPlainDot

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen
open Cert.KernelIdeal.Spec

/-- For any float values: the reference's composed term is the two layers around the host's two whole products. -/
theorem res_layers {F : FTy → Type} [FloatOps F] (m : (ℓ : Loc nD τ sig) → Buf (Elt F) ℓ) (c : Dev nD) :
    ValueP.res_main_v87 m c =
      layer8 (Host.dotGeneral dot_S100000x64_S64x8_S100000x8_1_0_0_1_n_n none
          (layer64 (Host.dotGeneral dot_S100000x512_S512x64_S100000x64_1_0_0_1_n_n none
              (m ((c.tc : Thread nD τ).loc main_arg0)) (m ((c.tc : Thread nD τ).loc main_arg2)))
            (srcOf (m ((c.tc : Thread nD τ).loc main_arg1))) (dstOf (m ((c.tc : Thread nD τ).loc main_arg1)))
            (normOf (srcOf (m ((c.tc : Thread nD τ).loc main_arg1))) (dstOf (m ((c.tc : Thread nD τ).loc main_arg1))))
            (m ((c.tc : Thread nD τ).loc main_arg3)))
          (m ((c.tc : Thread nD τ).loc main_arg4)))
        (srcOf (m ((c.tc : Thread nD τ).loc main_arg1))) (dstOf (m ((c.tc : Thread nD τ).loc main_arg1)))
        (normOf (srcOf (m ((c.tc : Thread nD τ).loc main_arg1))) (dstOf (m ((c.tc : Thread nD τ).loc main_arg1))))
        (m ((c.tc : Thread nD τ).loc main_arg5)) := by
  unfold ValueP.res_main_v87
  rfl

/-- The host's whole first product is the matrix product. -/
theorem dot1_eq (x : FVec Ideal S100000x512 .f32) (w : FVec Ideal S512x64 .f32) :
    Host.dotGeneral dot_S100000x512_S512x64_S100000x64_1_0_0_1_n_n none x w = mm x w := by
  funext j
  obtain ⟨a, b, rfl⟩ : ∃ (a : Fin 100000) (b : Fin 64), j = ix2 a b := ⟨j 0, j 1, eq_ix2 j⟩
  exact Cert.LibPlainDot.dotGeneral_apply dot_S100000x512_S512x64_S100000x64_1_0_0_1_n_n rfl rfl rfl rfl rfl rfl none _ x w a b

/-- The host's whole second product is the matrix product. -/
theorem dot2_eq (x : FVec Ideal S100000x64 .f32) (w : FVec Ideal S64x8 .f32) :
    Host.dotGeneral dot_S100000x64_S64x8_S100000x8_1_0_0_1_n_n none x w = mm x w := by
  funext j
  obtain ⟨a, b, rfl⟩ : ∃ (a : Fin 100000) (b : Fin 8), j = ix2 a b := ⟨j 0, j 1, eq_ix2 j⟩
  exact Cert.LibPlainDot.dotGeneral_apply dot_S100000x64_S64x8_S100000x8_1_0_0_1_n_n rfl rfl rfl rfl rfl rfl none _ x w a b

/-- Over the extended reals the reference's result is the specification of its arguments. -/
theorem res_eq (m : (ℓ : Loc nD τ sig) → Buf (Elt Ideal) ℓ) (c : Dev nD) :
    ValueP.res_main_v87 m c = out (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := by
  rw [res_layers, dot1_eq, dot2_eq]
  rfl

end Cert.ReferenceIdeal.RefValue

end
-- ==== Proof.lean ====
/-
  A two-layer graph convolution: the tiled program against its plain reference, over the extended reals.

  Both programs build the same 3300000 (source, destination) pairs from the edge list (every edge, then one self-loop
  per node), give each pair the weight deg(source)^(-1/2) · deg(destination)^(-1/2), and apply twice
      out(v, ·) = (sum over the pairs into v of  h(source, ·) · weight) + bias,
  with a rectifier after the first layer, to h = x · W1 and then to h = (first layer's result) · W2. They differ only in how
  the two matrix products are computed: the reference takes each whole product at once; the tiled program takes
  the rows in blocks (25 blocks of 4000 rows, then 5 blocks of 20000 rows), each block's product computed by a kernel
  after rounding both operands to a shorter float format, and computes the pairs' weights once instead of once per layer.
  Over the extended reals a rounding is the identity and every entry of either product is the same sum over k of
  l(a, k) · r(k, b), the blocks tile the rows, and the weights computed twice from one edge list are one value: so both
  results are the one function `Cert.KernelIdeal.Spec.out` of the six arguments (Proof/Spec.lean). No law of the extended
  reals beyond that is needed, and the precondition (finite inputs) is never opened.

  Proof/Products.lean: each kernel region leaves the matrix product of its input arrays. Proof/Entry.lean and
  Proof/KernelValue.lean: the tiled program's result read back through its run. Proof/RefValue.lean: the reference's
  result. The three frames are the programs' runs with the results dropped; nothing was rewritten in idealizing the
  tiled program, so `preserves` asks nothing.
-/
import proofs.«117894_j39427799777294_1_alg».proof.Defs
import proofs.«117894_j39427799777294_1_alg».proof.Proof.Gen.Kernel
import proofs.«117894_j39427799777294_1_alg».proof.Proof.Gen.Kernel.Skeleton
import proofs.«117894_j39427799777294_1_alg».proof.Proof.Gen.Kernel.Launch
import proofs.«117894_j39427799777294_1_alg».proof.Proof.Gen.Kernel.Points
import proofs.«117894_j39427799777294_1_alg».proof.Proof.Gen.Kernel.Frame
import proofs.«117894_j39427799777294_1_alg».proof.Proof.Gen.KernelIdeal
import proofs.«117894_j39427799777294_1_alg».proof.Proof.Gen.KernelIdeal.Skeleton
import proofs.«117894_j39427799777294_1_alg».proof.Proof.Gen.KernelIdeal.Launch
import proofs.«117894_j39427799777294_1_alg».proof.Proof.Gen.KernelIdeal.Points
import proofs.«117894_j39427799777294_1_alg».proof.Proof.Gen.KernelIdeal.Frame
import proofs.«117894_j39427799777294_1_alg».proof.Proof.Gen.ReferenceIdeal
import proofs.«117894_j39427799777294_1_alg».proof.Proof.Gen.Pre_finite_inputs
import proofs.«117894_j39427799777294_1_alg».proof.Proof.KernelRun
import proofs.«117894_j39427799777294_1_alg».proof.Proof.KernelValue
import proofs.«117894_j39427799777294_1_alg».proof.Proof.RefRun
import proofs.«117894_j39427799777294_1_alg».proof.Proof.RefValue
import Idealize.ShloMosaic.Adequacy
import Idealize.ShloMosaic.Init

noncomputable section

namespace Cert.Proof

open Idealize.ShloMosaic Idealize.ShloMosaic.TcCoe Idealize.SL.Sem

/-- The tiled program as printed runs and keeps its arguments. -/
theorem frame_kernel : Cert.frame_Kernel := fun m ρ _ => Cert.Kernel.Gen.frame m ρ

/-- The tiled program read over the extended reals runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Idealizing the tiled program rewrote no operation. -/
theorem preserves : Cert.preserves_Kernel_KernelIdeal := trivial

/-- From memories agreeing on the arguments both programs end with the specification's function of the arguments. -/
theorem algebraic : Cert.algebraic_KernelIdeal_ReferenceIdeal := by
  intro m ρ m' ρ' _ hagree
  refine ⟨fun c => Cert.KernelIdeal.Spec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Fold.result_eq m ρ c), (h c).2⟩)
      (Cert.KernelIdeal.Gen.run_out (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.res_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
